-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S8192x512 : Shape := ⟨2, ![8192, 512]⟩
abbrev S131072 : Shape := ⟨1, ![131072]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_

variable [Facts]

def fn {F : FTy → Type} [FloatOps F] (main_arg0 : FVec F S131072x512 .f32) (main_arg1 : FVec F S8192x512 .f32) (main_arg2 : IVec S131072 32) (main_arg3 : IVec S131072 32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S131072x512 : Shape := ⟨2, ![131072, 512]⟩
abbrev S8192x512 : Shape := ⟨2, ![8192, 512]⟩
abbrev S131072 : Shape := ⟨1, ![131072]⟩
abbrev S1x131072 : Shape := ⟨2, ![1, 131072]⟩
abbrev S1x4096 : Shape := ⟨2, ![1, 4096]⟩
abbrev S4096x512 : Shape := ⟨2, ![4096, 512]⟩
abbrev S1024x512 : Shape := ⟨2, ![1024, 512]⟩
abbrev S1024x1 : Shape := ⟨2, ![1024, 1]⟩
abbrev S1024x4096 : Shape := ⟨2, ![1024, 4096]⟩

abbrev nBuf : Space → Nat
  | .hbm => 7
  | .vmem => 9
  | .smem => 0
  | _ => 0

abbrev bufTy : (tb : Table) → Fin (tcTables nBuf tb) → BufTy
  | .hbm, ⟨0, _⟩ => ⟨S131072x512, .f32⟩
  | .hbm, ⟨1, _⟩ => ⟨S8192x512, .f32⟩
  | .hbm, ⟨2, _⟩ => ⟨S131072, .i32⟩
  | .hbm, ⟨3, _⟩ => ⟨S131072, .i32⟩
  | .hbm, ⟨4, _⟩ => ⟨S1x131072, .i32⟩
  | .hbm, ⟨5, _⟩ => ⟨S131072x512, .bf16⟩
  | .hbm, ⟨6, _⟩ => ⟨S8192x512, .f32⟩
  | .local _ .vmem, ⟨0, _⟩ => ⟨S1x4096, .i32⟩
  | .local _ .vmem, ⟨1, _⟩ => ⟨S1x4096, .i32⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 32], ![false, false]⟩

def k0_cond2 (i : grid0.Coords) : BitVec 1 :=
  let arg1 : BitVec 32 := BitVec.ofNat 32 (i 1).val
  let c31_i32 : BitVec 32 := 31#32
  let v23 : BitVec 1 := Scalar.cmpi .eq arg1 c31_i32
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S131072_S1x131072 : S131072.ShapeCasts S1x131072
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  iota_S1024x1_d0_w32 : S1024x1.Iotas .tc 32 [0]
  broadcasts_S1024x1_S1024x4096 : S1024x1.Broadcasts S1024x4096
  broadcasts_S1x4096_S1024x4096 : S1x4096.Broadcasts S1024x4096
  natLt_1_32 : 1 < 32
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  dot_S1024x4096_S4096x512_S1024x512_1_0_0_1_n_n_wf : DotDims.WF S1024x4096 S4096x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096.size a ≤ S1x131072.size a
  hwx0_0 : ∀ i : grid0.Coords, EltTy.bits .i32 = 32 ∨ (Rect.block (s := S1x131072) S1x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S131072x512.size a
  hwx0_1 : ∀ i : grid0.Coords, EltTy.bits .bf16 = 32 ∨ (Rect.block (s := S131072x512) S4096x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x512.size a
  hwx0_2 : ∀ i : grid0.Coords, EltTy.bits .f32 = 32 ∨ (Rect.block (s := S8192x512) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x512.size a
  hwx0_3 : ∀ i : grid0.Coords, EltTy.bits .f32 = 32 ∨ (Rect.block (s := S8192x512) S1024x512.size (cc0_transform_3 i) (hinb0_3 i)).WholeWords (EltTy.packing .f32)

variable [Facts₀]

def dot_S1024x4096_S4096x512_S1024x512_1_0_0_1_n_n : DotDims S1024x4096 S4096x512 S1024x512 where
  lhsContracting := [1]
  rhsContracting := [0]
  lhsNonContracting := [0]
  rhsNonContracting := [1]
  lhsBatch := []
  rhsBatch := []
  wf := dot_S1024x4096_S4096x512_S1024x512_1_0_0_1_n_n_wf

abbrev win0_0 : Pipeline.Window sig grid0 :=
  Pipeline.Window.ofSpec (Memref.whole main_call0_v0) S1x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where
  halias0_3 : Pipeline.Aliased win0 2 3

variable [Facts]
-- ==== ReferenceIdeal.lean ====
abbrev S131072x512 : Shape := ⟨2, ![131072, 512]⟩
abbrev S8192x512 : Shape := ⟨2, ![8192, 512]⟩
abbrev S131072 : Shape := ⟨1, ![131072]⟩
abbrev S_ : Shape := ⟨0, ![]⟩
abbrev S131072x1 : Shape := ⟨2, ![131072, 1]⟩

abbrev nBuf : Space → Nat
  | .hbm => 9
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S8192x512, .f32⟩
  | .hbm, ⟨2, _⟩ => ⟨S131072, .i32⟩
  | .hbm, ⟨3, _⟩ => ⟨S131072, .i32⟩
  | .hbm, ⟨4, _⟩ => ⟨S_, .f32⟩
  | .hbm, ⟨5, _⟩ => ⟨S8192x512, .f32⟩
  | .hbm, ⟨6, _⟩ => ⟨S131072x1, .i32⟩
  | .hbm, ⟨7, _⟩ => ⟨S8192x512, .f32⟩
  | .hbm, ⟨8, _⟩ => ⟨S8192x512, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]

class Facts₀ : Prop where
  bcast_S_S8192x512 : S_.BroadcastsInDim S8192x512 (![] : Fin 0 → Fin S8192x512.rank)
  bcast_S131072_S131072x1_0 : S131072.BroadcastsInDim S131072x1 (![0] : Fin 1 → Fin S131072x1.rank)
  scatter_S8192x512_S131072x1_S131072x512_1_0_0_1_wf : ScatterDims.WF S8192x512 S131072x1 S131072x512 [1] [0] [0] 1

variable [Facts₀]

def scatter_S8192x512_S131072x1_S131072x512_1_0_0_1 : ScatterDims S8192x512 S131072x1 S131072x512 where
  updateWindowDims := [1]
  insertedWindowDims := [0]
  scatterDimsToOperandDims := [0]
  indexVectorDim := 1
  wf := scatter_S8192x512_S131072x1_S131072x512_1_0_0_1_wf

class Facts : Prop extends Facts₀ where

variable [Facts]
-- ==== Proof.Spec.lean ====
/-
  The segment sum as ONE function of the three argument arrays, and the regrouping of its sum.

  Row `c` of the result is row `c` of the class sums plus the sum of the batch rows whose target, read as a
  signed word, is `c`. Written with a weight: batch row `b` enters class `c` with weight 1 when its target is
  `c` and weight 0 otherwise. Over the extended reals `0 * z = 0` and `1 * z = z` for every `z`, infinite or
  not, so nothing here needs the batch to be finite.

  The batch rows are split into 32 consecutive tiles of 4096 rows and the classes into 8 consecutive tiles of
  1024. The contribution of batch tile `s` to class tile `q` is `tileSum … (32 * q + s)`; summing the 32 batch
  tiles regroups, by associativity and commutativity of the sum alone, to the sum over all 131072 rows.
-/
import Idealize.ShloMosaic.PureOps.Ideal
import Idealize.ShloMosaic.Lib.ValueIdx

noncomputable section

open scoped BigOperators

namespace Cert.SegSum

open Idealize.ShloMosaic Idealize.ShloMosaic.ValueIdx

abbrev Sbatch : Shape := ⟨2, ![131072, 512]⟩
abbrev Scls : Shape := ⟨2, ![8192, 512]⟩
abbrev Stgt : Shape := ⟨1, ![131072]⟩
abbrev Stile : Shape := ⟨2, ![1024, 512]⟩

/-- The weight with which a batch row of target word `t` enters class `cls`: 1 when `t`, read signed, is `cls`. -/
def hot (t : BitVec 32) (cls : ℕ) : EReal := if t.toInt = (cls : ℤ) then 1 else 0

/-- The result array: the class sums plus, row by row, the weighted sum of all batch rows. -/
def G (x : Sbatch.Idx → EReal) (cs : Scls.Idx → EReal) (tg : Stgt.Idx → BitVec 32) : Scls.Idx → EReal :=
  fun i => cs i + ∑ b : Fin 131072, hot (tg (ix1 b)) (i 0).val * x (ix2 b (i 1))

/-- Row `k` of the batch tile that grid point `n` works on (tile `n % 32`). -/
def row (n : ℕ) (k : Fin 4096) : Fin 131072 :=
  ⟨(n % 32) * 4096 + k.val, by have := Nat.mod_lt n (by decide : 0 < 32); have := k.isLt; omega⟩

/-- What grid point `n` adds at entry `i` of its class tile (tile `n / 32`): the weighted sum over its batch tile. -/
def tileSum (x : Sbatch.Idx → EReal) (tg : Stgt.Idx → BitVec 32) (n : ℕ) (i : Stile.Idx) : EReal :=
  ∑ k : Fin 4096, hot (tg (ix1 (row n k))) ((n / 32) * 1024 + (i 0).val) * x (ix2 (row n k) (i 1))

/-- A word read signed is the natural `n` (below 2^31) exactly when it is the word of `n`. -/
theorem toInt_eq_iff (t : BitVec 32) (n : ℕ) (hn : n < 2147483648) :
    t.toInt = (n : ℤ) ↔ t = BitVec.ofNat 32 n := by
  constructor
  · intro h
    apply BitVec.eq_of_toInt_eq
    rw [h, BitVec.toInt_ofNat']
    simp only [Int.bmod_def]
    omega
  · intro h
    rw [h, BitVec.toInt_ofNat']
    simp only [Int.bmod_def]
    omega

/-- The comparison the kernel makes for local class `c` of class tile `ci`: the word of `c` against the target
    less `ci * 1024` (wrapping). They are equal exactly when the target, read signed, is the global class
    `ci * 1024 + c`: the subtraction is invertible on words, and the class is far below 2^31. -/
theorem onehot_word (t : BitVec 32) (ci c : ℕ) (hci : ci < 8) (hc : c < 1024) :
    (BitVec.ofNat 32 c = t - BitVec.ofNat 32 ci * 1024#32) ↔ t.toInt = ((ci * 1024 + c : ℕ) : ℤ) := by
  rw [toInt_eq_iff t (ci * 1024 + c) (by omega)]
  constructor
  · intro h
    bv_omega
  · intro h
    bv_omega

/-- The 32 batch tiles of a class tile regroup to the whole batch. -/
theorem sum_tiles {M : Type*} [AddCommMonoid M] (f : Fin 131072 → M) (q : ℕ) :
    ∑ s ∈ Finset.range 32, ∑ k : Fin 4096, f (row (32 * q + s) k) = ∑ b : Fin 131072, f b := by
  rw [Finset.sum_range (fun s => ∑ k : Fin 4096, f (row (32 * q + s) k))]
  rw [← Fintype.sum_prod_type' (fun (s : Fin 32) (k : Fin 4096) => f (row (32 * q + s.val) k))]
  refine Fintype.sum_equiv (finProdFinEquiv.trans (finCongr (by norm_num))) _ _ (fun sk => ?_)
  congr 1
  apply Fin.ext
  obtain ⟨s, k⟩ := sk
  have hs := s.isLt
  simp only [row, Equiv.trans_apply, finProdFinEquiv_apply_val, finCongr_apply, Fin.coe_cast]
  omega

/-- Row `q * 1024 + p` of the result, assembled from class tile `q`: the class sums' entry plus the 32 tile
    contributions (on top of a zero) is the result array's entry. -/
theorem G_tile (x : Sbatch.Idx → EReal) (cs : Scls.Idx → EReal) (tg : Stgt.Idx → BitVec 32)
    (q : ℕ) (p : Fin 1024) (h : Fin 512) (r : Fin 8192) (hr : r.val = q * 1024 + p.val) :
    cs (ix2 r h) + ((0 : EReal) + ∑ s ∈ Finset.range 32, tileSum x tg (32 * q + s) (ix2 p h))
      = G x cs tg (ix2 r h) := by
  unfold G
  refine congrArg (fun z => cs (ix2 r h) + z) ?_
  rw [zero_add, ← sum_tiles (fun b => hot (tg (ix1 b)) (ix2 r h 0).val * x (ix2 b (ix2 r h 1))) q]
  refine Finset.sum_congr rfl (fun s hs => ?_)
  have hs' : s < 32 := Finset.mem_range.mp hs
  unfold tileSum
  refine Finset.sum_congr rfl (fun k _ => ?_)
  have e : (32 * q + s) / 32 * 1024 + ((ix2 p h : Stile.Idx) 0).val = ((ix2 r h : Scls.Idx) 0).val := by
    show (32 * q + s) / 32 * 1024 + p.val = r.val
    omega
  rw [e]

end Cert.SegSum

end
-- ==== Proof.KernelPieces.lean ====
/-
  What each control case of the kernel body leaves behind, as values.

  The body always ends by storing, into the accumulator it carries from grid point to grid point, the
  accumulator's previous contents plus the product of the one-hot block with the batch block. At the first batch
  tile of a class tile it first stores a zero block and reads that back, so there the previous contents are zero.
  At the last batch tile it also stores the class sums' block plus the accumulator into the output block.
  Each store covers its whole buffer, so what a buffer ends with is the last store's value, whose loads read the
  whole input buffers.
-/
import proofs.«404510_j54958401519770_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A middle batch tile: the accumulator, holding `xs0`, ends at the update of `xs0` by the tile's blocks. -/
theorem scratch_B (c : Dev nD) (i : grid0.Coords) (arg2 : Memref sig .tc .vmem S1x4096 .i32) (harg2 : arg2.IsWhole) (arg3 : Memref sig .tc .vmem S4096x512 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : ¬cond0_1 i)
    (x0 : Vec F S1x4096 .i32) (x1 : Vec F S4096x512 .bf16) (x2 : Vec F S1024x512 .f32) (xs0 : Vec F S1024x512 .f32) :
    sout0_B_0 c i arg2 harg2 arg3 harg3 arg4 harg4 arg5 harg5 arg6 harg6 hc0 hc1 x0 x1 x2 xs0 = k0_pay2 i x0 x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz]
  simp only [View.readAt_eq_ld, harg2.read_unread, harg3.read_unread, harg6.read_unread,
    View.ld_unit_zero (S := S1x4096) hz, View.ld_unit_zero (S := S4096x512) hz, View.ld_unit_zero (S := S1024x512) hz]

/-- The last batch tile: the accumulator ends at the same update. -/
theorem scratch_C (c : Dev nD) (i : grid0.Coords) (arg2 : Memref sig .tc .vmem S1x4096 .i32) (harg2 : arg2.IsWhole) (arg3 : Memref sig .tc .vmem S4096x512 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : cond0_1 i)
    (x0 : Vec F S1x4096 .i32) (x1 : Vec F S4096x512 .bf16) (x2 : Vec F S1024x512 .f32) (xs0 : Vec F S1024x512 .f32) :
    sout0_C_0 c i arg2 harg2 arg3 harg3 arg4 harg4 arg5 harg5 arg6 harg6 hc0 hc1 x0 x1 x2 xs0 = k0_pay2 i x0 x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg6.read_unread,
    View.ld_unit_zero (S := S1x4096) hz, View.ld_unit_zero (S := S4096x512) hz, View.ld_unit_zero (S := S1024x512) hz]

/-- The last batch tile: the output block ends at the class sums' block `x2` plus the updated accumulator. -/
theorem out_C (c : Dev nD) (i : grid0.Coords) (arg2 : Memref sig .tc .vmem S1x4096 .i32) (harg2 : arg2.IsWhole) (arg3 : Memref sig .tc .vmem S4096x512 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : cond0_1 i)
    (x0 : Vec F S1x4096 .i32) (x1 : Vec F S4096x512 .bf16) (x2 : Vec F S1024x512 .f32) (xs0 : Vec F S1024x512 .f32) :
    out0_C_3 c i arg2 harg2 arg3 harg3 arg4 harg4 arg5 harg5 arg6 harg6 hc0 hc1 x0 x1 x2 xs0 = k0_pay3 x2 (k0_pay2 i x0 x1 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread,
    View.readCov_unit_zero (S := S1024x512) _ hz,
    View.ld_unit_zero (S := S1x4096) hz, View.ld_unit_zero (S := S4096x512) hz, View.ld_unit_zero (S := S1024x512) hz]

/-- The first batch tile: the accumulator is zeroed and then updated, so it ends at the update of the zero block. -/
theorem scratch_A (c : Dev nD) (i : grid0.Coords) (arg2 : Memref sig .tc .vmem S1x4096 .i32) (harg2 : arg2.IsWhole) (arg3 : Memref sig .tc .vmem S4096x512 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (hc0 : cond0_0 i) (hc1 : ¬cond0_1 i)
    (x0 : Vec F S1x4096 .i32) (x1 : Vec F S4096x512 .bf16) (x2 : Vec F S1024x512 .f32) :
    sout0_A_0 c i arg2 harg2 arg3 harg3 arg4 harg4 arg5 harg5 arg6 harg6 hc0 hc1 x0 x1 x2 = k0_pay2 i x0 x1 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1024x512) hz, View.readCov_unit_zero (S := S1024x512) _ hz]
  simp only [View.readAt_eq_ld, harg2.read_unread, harg3.read_unread,
    View.ld_unit_zero (S := S1x4096) hz, View.ld_unit_zero (S := S4096x512) hz]

end Cert.KernelIdeal.Pieces

end
-- ==== Proof.LibContract.lean ====
/-
  A matrix product with ONE contracted axis, read at an output index over the extended reals.

  The matrix unit's product into a zero accumulator is, at an output index j, the sum over the contraction
  index of the products of the two operands at the operand indices the dimension numbers give. When a single
  axis is contracted, of extent K, the contraction index is that axis's coordinate, and the sum is a sum over
  `Fin K`. The caller names the operand index at coordinate k on each side.
-/
import Idealize.ShloMosaic.PureOps.Ideal
import Idealize.ShloMosaic.PureOps.Ideal.Laws
import Idealize.ShloMosaic.Lib.ValueIdx

noncomputable section

open scoped BigOperators

namespace Idealize.ShloMosaic.Contract

open Idealize.ShloMosaic Idealize.ShloMosaic.ValueIdx

/-- With no batch axes and ONE free (non-contracted) axis on the left operand, the left operand's index on that axis
    is the output index's first coordinate. (The library has the companion fact for the contracted axis,
    `DotDims.lhsIdx_val_of_single`; this is proved the same way: the position of the axis in a one-element list is 0.) -/
theorem lhsIdx_val_of_free {sl sr so : Shape} (d : DotDims sl sr so) {nl : Fin sl.rank} (hb : d.lhsBatch = [])
    (hn : d.lhsNonContracting = [nl]) (h0 : 0 < so.rank) (j : so.Idx) (k : d.contr.Idx) :
    (d.lhsIdx j k nl).val = (j ⟨0, h0⟩).val := by
  have hmem : nl ∈ d.lhsNonContracting := by rw [hn]; exact List.mem_singleton.mpr rfl
  unfold DotDims.lhsIdx
  rw [dif_neg (by rw [hb]; exact List.not_mem_nil), dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axes, one free axis on the left and ONE free axis on the right operand, the right operand's index
    on its free axis is the output index's second coordinate. -/
theorem rhsIdx_val_of_free {sl sr so : Shape} (d : DotDims sl sr so) {nl : Fin sl.rank} {nr : Fin sr.rank}
    (hbl : d.lhsBatch = []) (hbr : d.rhsBatch = []) (hnl : d.lhsNonContracting = [nl]) (hnr : d.rhsNonContracting = [nr])
    (h1 : 1 < so.rank) (j : so.Idx) (k : d.contr.Idx) :
    (d.rhsIdx j k nr).val = (j ⟨1, h1⟩).val := by
  have hmem : nr ∈ d.rhsNonContracting := by rw [hnr]; exact List.mem_singleton.mpr rfl
  unfold DotDims.rhsIdx
  rw [dif_neg (by rw [hbr]; exact List.not_mem_nil), dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hbl, hnl, hnr])

/-- A product into the zero accumulator with one contracted axis of extent `K`, at output index `j`: the sum over
    `k : Fin K` of the left operand at `li k` times the right operand at `ri k`, where `li k` and `ri k` are the
    operand indices of contraction coordinate `k`. -/
theorem matmul_zero_single {sl sr so : Shape} {φ₁ φ₂ : FTy} (d : DotDims sl sr so) (prec : Option ContractPrecision) (K : Nat)
    (hr : d.contr.rank = 1) (hs : d.contr.size ⟨0, by omega⟩ = K)
    (L : FVec Ideal sl φ₁) (R : FVec Ideal sr φ₂) (j : so.Idx) (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    FloatOps.matmul d prec L R (constant so .f32 0x00000000#32) j = ∑ k : Fin K, L (li k) * R (ri k) := by
  rw [Ideal.matmul_constant_zero_apply, ← Equiv.sum_comp (contrEquiv1 d K hr hs).symm]
  exact Finset.sum_congr rfl fun k _ => by rw [hl k, hrr k]

/-- ROWS TIMES COLUMNS: a product of an `A × K` by a `K × B` matrix into the zero accumulator (left axis 1 against right
    axis 0, no batch axes), at entry `(p, h)`: the sum over `k` of `L[p,k] · R[k,h]`. At a literal dimension record every
    hypothesis is `rfl`. -/
theorem matmul_zero_rows_cols {A K B : Nat} {φ₁ φ₂ : FTy}
    (d : DotDims (⟨2, ![A, K]⟩ : Shape) (⟨2, ![K, B]⟩ : Shape) (⟨2, ![A, B]⟩ : Shape)) (prec : Option ContractPrecision)
    (hr : d.contr.rank = 1) (hs : d.contr.size ⟨0, by omega⟩ = K)
    (hbl : d.lhsBatch = []) (hbr : d.rhsBatch = []) (hnl : d.lhsNonContracting = [0]) (hnr : d.rhsNonContracting = [1])
    (hcl : d.lhsContracting = [1]) (hcr : d.rhsContracting = [0])
    (L : FVec Ideal (⟨2, ![A, K]⟩ : Shape) φ₁) (R : FVec Ideal (⟨2, ![K, B]⟩ : Shape) φ₂) (p : Fin A) (h : Fin B) :
    FloatOps.matmul d prec L R (constant (⟨2, ![A, B]⟩ : Shape) .f32 0x00000000#32) (ix2 p h)
      = ∑ k : Fin K, L (ix2 p k) * R (ix2 k h) := by
  refine matmul_zero_single d prec K hr hs L R (ix2 p h) (fun k => ix2 p k) (fun k => ix2 k h) (fun k => ?_) (fun k => ?_)
  · have hk := contrEquiv1_symm_val d K hr hs k
    exact funext fun a => Fin.ext (by
      match a with
      | ⟨0, _⟩ => exact lhsIdx_val_of_free d hbl hnl Nat.zero_lt_two _ _
      | ⟨1, _⟩ => exact (d.lhsIdx_val_of_single hcl _ _).trans hk)
  · have hk := contrEquiv1_symm_val d K hr hs k
    exact funext fun a => Fin.ext (by
      match a with
      | ⟨0, _⟩ => exact (d.rhsIdx_val_of_single hcr _ _).trans hk
      | ⟨1, _⟩ => exact rhsIdx_val_of_free d hbl hbr hnl hnr Nat.one_lt_two _ _)

/-- COLUMNS TIMES COLUMNS: a product of a `K × A` by a `K × B` matrix into the zero accumulator, contracting the FIRST
    axis of both (the left operand used transposed), at entry `(p, h)`: the sum over `k` of `L[k,p] · R[k,h]`. -/
theorem matmul_zero_cols_cols {A K B : Nat} {φ₁ φ₂ : FTy}
    (d : DotDims (⟨2, ![K, A]⟩ : Shape) (⟨2, ![K, B]⟩ : Shape) (⟨2, ![A, B]⟩ : Shape)) (prec : Option ContractPrecision)
    (hr : d.contr.rank = 1) (hs : d.contr.size ⟨0, by omega⟩ = K)
    (hbl : d.lhsBatch = []) (hbr : d.rhsBatch = []) (hnl : d.lhsNonContracting = [1]) (hnr : d.rhsNonContracting = [1])
    (hcl : d.lhsContracting = [0]) (hcr : d.rhsContracting = [0])
    (L : FVec Ideal (⟨2, ![K, A]⟩ : Shape) φ₁) (R : FVec Ideal (⟨2, ![K, B]⟩ : Shape) φ₂) (p : Fin A) (h : Fin B) :
    FloatOps.matmul d prec L R (constant (⟨2, ![A, B]⟩ : Shape) .f32 0x00000000#32) (ix2 p h)
      = ∑ k : Fin K, L (ix2 k p) * R (ix2 k h) := by
  refine matmul_zero_single d prec K hr hs L R (ix2 p h) (fun k => ix2 k p) (fun k => ix2 k h) (fun k => ?_) (fun k => ?_)
  · have hk := contrEquiv1_symm_val d K hr hs k
    exact funext fun a => Fin.ext (by
      match a with
      | ⟨0, _⟩ => exact (d.lhsIdx_val_of_single hcl _ _).trans hk
      | ⟨1, _⟩ => exact lhsIdx_val_of_free d hbl hnl Nat.zero_lt_two _ _)
  · have hk := contrEquiv1_symm_val d K hr hs k
    exact funext fun a => Fin.ext (by
      match a with
      | ⟨0, _⟩ => exact (d.rhsIdx_val_of_single hcr _ _).trans hk
      | ⟨1, _⟩ => exact rhsIdx_val_of_free d hbl hbr hnl hnr Nat.one_lt_two _ _)

/-- The host's product with one contracted axis, the same way. -/
theorem dotGeneral_single {sl sr so : Shape} {φ₁ φ₂ : FTy} (d : DotDims sl sr so) (prec : Option ContractPrecision)
    (sched : HostSchedule) (K : Nat)
    (hr : d.contr.rank = 1) (hs : d.contr.size ⟨0, by omega⟩ = K)
    (L : FVec Ideal sl φ₁) (R : FVec Ideal sr φ₂) (j : so.Idx) (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    FloatOps.dotGeneral d prec sched L R j = ∑ k : Fin K, L (li k) * R (ri k) := by
  rw [Ideal.dotGeneral_apply, ← Equiv.sum_comp (contrEquiv1 d K hr hs).symm]
  exact Finset.sum_congr rfl fun k _ => by rw [hl k, hrr k]

/-- The host's product of an `A × K` by a `K × B` matrix (left axis 1 against right axis 0), at entry `(p, h)`. -/
theorem dotGeneral_rows_cols {A K B : Nat} {φ₁ φ₂ : FTy}
    (d : DotDims (⟨2, ![A, K]⟩ : Shape) (⟨2, ![K, B]⟩ : Shape) (⟨2, ![A, B]⟩ : Shape)) (prec : Option ContractPrecision)
    (sched : HostSchedule)
    (hr : d.contr.rank = 1) (hs : d.contr.size ⟨0, by omega⟩ = K)
    (hbl : d.lhsBatch = []) (hbr : d.rhsBatch = []) (hnl : d.lhsNonContracting = [0]) (hnr : d.rhsNonContracting = [1])
    (hcl : d.lhsContracting = [1]) (hcr : d.rhsContracting = [0])
    (L : FVec Ideal (⟨2, ![A, K]⟩ : Shape) φ₁) (R : FVec Ideal (⟨2, ![K, B]⟩ : Shape) φ₂) (p : Fin A) (h : Fin B) :
    FloatOps.dotGeneral d prec sched L R (ix2 p h) = ∑ k : Fin K, L (ix2 p k) * R (ix2 k h) := by
  refine dotGeneral_single d prec sched K hr hs L R (ix2 p h) (fun k => ix2 p k) (fun k => ix2 k h) (fun k => ?_) (fun k => ?_)
  · have hk := contrEquiv1_symm_val d K hr hs k
    exact funext fun a => Fin.ext (by
      match a with
      | ⟨0, _⟩ => exact lhsIdx_val_of_free d hbl hnl Nat.zero_lt_two _ _
      | ⟨1, _⟩ => exact (d.lhsIdx_val_of_single hcl _ _).trans hk)
  · have hk := contrEquiv1_symm_val d K hr hs k
    exact funext fun a => Fin.ext (by
      match a with
      | ⟨0, _⟩ => exact (d.rhsIdx_val_of_single hcr _ _).trans hk
      | ⟨1, _⟩ => exact rhsIdx_val_of_free d hbl hbr hnl hnr Nat.one_lt_two _ _)

end Idealize.ShloMosaic.Contract

end
-- ==== Proof.KernelPayload.lean ====
/-
  The body's arithmetic read at an entry, over the extended reals.

  Entry `(p, k)` of the one-hot block compares the word of the local class `p` with target `k` of the tile less
  `1024` times the class tile's number, and is 1 or 0 accordingly; by `onehot_word` that is the weight with which
  the batch row enters the GLOBAL class `1024 * tile + p`. The product with the batch block into a zero block is,
  at entry `(p, h)`, the sum over the tile's 4096 rows of weight times batch entry, and the update adds it to the
  accumulator's entry. A change of float format is the identity here.
-/
import proofs.«404510_j54958401519770_3_alg».proof.Proof.Gen.KernelIdeal.Skeleton
import proofs.«404510_j54958401519770_3_alg».proof.Proof.Spec
import proofs.«404510_j54958401519770_3_alg».proof.Proof.LibContract
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen Cert.SegSum

/-- The one-hot entry, widened to a word and read as a signed integer, is the weight of the target for the global
    class `ci * 1024 + c`. -/
theorem hot_word (t : BitVec 32) (ci c : ℕ) (hci : ci < 8) (hc : c < 1024) :
    ((((IntOp.cmpi .eq (BitVec.ofNat 32 c) (t - BitVec.ofNat 32 ci * 1024#32)).setWidth 32).toInt : ℝ) : EReal)
      = hot t (ci * 1024 + c) := by
  unfold hot IntOp.cmpi
  by_cases h : BitVec.ofNat 32 c = t - BitVec.ofNat 32 ci * 1024#32
  · rw [if_pos ((onehot_word t ci c hci hc).mp h)]
    have hb : (BitVec.ofNat 32 c == t - BitVec.ofNat 32 ci * 1024#32) = true := by simpa using h
    rw [hb]
    have : ((BitVec.ofBool true).setWidth 32).toInt = 1 := by decide
    rw [this]; simp
  · rw [if_neg (fun h' => h ((onehot_word t ci c hci hc).mpr h'))]
    have hb : (BitVec.ofNat 32 c == t - BitVec.ofNat 32 ci * 1024#32) = false := by simpa using h
    rw [hb]
    have : ((BitVec.ofBool false).setWidth 32).toInt = 0 := by decide
    rw [this]; simp

/-- The accumulator's update at entry `(p, h)`: its previous entry plus the weighted sum over the tile's rows. -/
theorem pay2_apply (i : grid0.Coords) (v3 : Vec Ideal S1x4096 .i32) (v15 : Vec Ideal S4096x512 .bf16)
    (v17 : Vec Ideal S1024x512 .f32) (p : Fin 1024) (h : Fin 512) :
    k0_pay2 (F := Ideal) i v3 v15 v17 (ix2 p h)
      = v17 (ix2 p h) + ∑ k : Fin 4096, hot (v3 (ix2 (0 : Fin 1) k)) ((i 0).val * 1024 + p.val) * v15 (ix2 k h) := by
  unfold k0_pay2
  simp only [shapeCast_self]
  rw [addf_apply]
  refine congrArg (fun z => v17 (ix2 p h) + z) ?_
  refine (Contract.matmul_zero_rows_cols (φ₁ := .bf16) (φ₂ := .bf16) _ none rfl rfl rfl rfl rfl rfl rfl rfl _ v15 p h).trans ?_
  refine Finset.sum_congr rfl fun k _ => ?_
  refine congrArg (fun z => z * v15 (ix2 k h)) ?_
  rw [truncf_apply, sitofp_apply, extui_apply]
  show ((((IntOp.cmpi .eq _ _).setWidth 32).toInt : ℝ) : EReal) = _
  rw [broadcastTo_apply _ broadcasts_S1024x1_S1024x4096 (ix2 p k) (ix2 p (0 : Fin 1)) (fun a => by fin_cases a <;> rfl),
    broadcastTo_apply _ broadcasts_S1x4096_S1024x4096 (ix2 p k) (ix2 (0 : Fin 1) k) (fun a => by fin_cases a <;> rfl),
    iota_single_apply]
  exact hot_word (v3 (ix2 (0 : Fin 1) k)) (i 0).val p.val (i 0).isLt p.isLt

/-- The block the accumulator is reset to is zero at every entry. -/
theorem pay1_apply (y : S1024x512.Idx) : k0_pay1 (F := Ideal) y = 0 := by
  unfold k0_pay1
  simp only [shapeCast_self]
  rw [broadcast_apply]
  exact Ideal.ofBits_zero_f32

/-- The output block is the class sums' block plus the accumulator, entry by entry. -/
theorem pay3_apply (v26 v27 : Vec Ideal S1024x512 .f32) (y : S1024x512.Idx) :
    k0_pay3 (F := Ideal) v26 v27 y = v26 y + v27 y := rfl

end Cert.KernelIdeal.Payload

end
-- ==== Proof.KernelBlocks.lean ====
/-
  The blocks the kernel is handed at a grid point, read off the argument arrays.

  Grid point `t` is class tile `t / 32` and batch tile `t % 32`. Its target block is row-major positions
  `(t % 32) * 4096 + k` of the targets (the targets viewed as one row of 131072 words is the same sequence), its
  batch block is rows `(t % 32) * 4096 + k` of the batch (the change of float format before the call is the identity
  over the extended reals), and its class-sums block is rows `(t / 32) * 1024 + p` of the class sums.
-/
import proofs.«404510_j54958401519770_3_alg».proof.Proof.Gen.KernelIdeal.Value
import proofs.«404510_j54958401519770_3_alg».proof.Proof.Spec
import Idealize.ShloMosaic.Lib.Pipeline.Value
import Idealize.ShloMosaic.Lib.StableHlo.Run
import Idealize.ShloMosaic.Lib.ValueIdx

noncomputable section
open scoped BigOperators
open Idealize.ShloMosaic Idealize.ShloMosaic.TcCoe Idealize.SL.Sem Idealize.ShloMosaic.ValueIdx Idealize.ShloMosaic.StableHlo

namespace Cert.KernelIdeal.Blocks

open Cert.KernelIdeal Cert.KernelIdeal.Gen Cert.SegSum

variable (m : (ℓ : Loc nD τ sig) → Buf (Elt Ideal) ℓ)

/-- The region finds the targets as one row: the same words in the same order. -/
theorem V_tgt (c : Dev nD) : (V m c main_call0_v0 : S1x131072.Idx → BitVec 32)
    = shapeCast S1x131072 (m ((c : Thread nD τ).loc main_arg2)) shapeCasts_S131072_S1x131072 := by
  dsimp only [V, hostOps0]; after_results; rfl

/-- The region finds the batch with its format changed: the same extended reals. -/
theorem V_bat (c : Dev nD) : (V m c main_call0_v1 : S131072x512.Idx → EReal)
    = m ((c : Thread nD τ).loc main_arg0) := by
  dsimp only [V, hostOps0]; after_results; rfl

/-- The result's buffer starts as a copy of the class sums. -/
theorem V_cls (c : Dev nD) : (V m c main_v0 : S8192x512.Idx → EReal)
    = m ((c : Thread nD τ).loc main_arg1) := by
  dsimp only [V, hostOps0]; after_results; rfl

/-- The target window's block index at point `t`: row 0, batch tile `t % 32`. -/
theorem idx0 : ∀ t : Fin cfg0.N, win0_0.index t (0 : Fin 2) = 0 ∧ win0_0.index t (1 : Fin 2) = t.val % 32 :=
  (by decide +kernel : ∀ t : Fin grid0.N, win0_0.index t (0 : Fin 2) = 0 ∧ win0_0.index t (1 : Fin 2) = t.val % 32)

/-- Word `k` of the target block at point `t` is the target of batch row `(t % 32) * 4096 + k`. -/
theorem tblk_apply (c : Dev nD) (t : Fin cfg0.N) (k : Fin 4096) :
    (iblk m c 0 t : Vec Ideal S1x4096 .i32) (ix2 (0 : Fin 1) k) = m ((c : Thread nD τ).loc main_arg2) (ix1 (row t.val k)) := by
  unfold iblk
  rw [View.read_apply]
  show V m c main_call0_v0 (((cfg0.win 0).blk t).view.emb (ix2 (0 : Fin 1) k)) = _
  refine (congrFun (V_tgt m c) _).trans ?_
  refine shapeCast_apply _ _ _ (ix1 (row t.val k)) ?_
  rw [Shape.rowMajor_val_one, Shape.rowMajor_val_two]
  obtain ⟨e0, e1⟩ := idx0 t
  show (row t.val k).val = (win0_0.index t (0 : Fin 2) * 1 + 1 * 0) * 131072 + (win0_0.index t (1 : Fin 2) * 4096 + 1 * k.val)
  rw [e0, e1]
  show t.val % 32 * 4096 + k.val = _
  omega

/-- The batch window's block index at point `t`: batch tile `t % 32`, all columns. -/
theorem idx1 : ∀ t : Fin cfg0.N, win0_1.index t (0 : Fin 2) = t.val % 32 ∧ win0_1.index t (1 : Fin 2) = 0 :=
  (by decide +kernel : ∀ t : Fin grid0.N, win0_1.index t (0 : Fin 2) = t.val % 32 ∧ win0_1.index t (1 : Fin 2) = 0)

/-- Entry `(k, h)` of the batch block at point `t` is entry `((t % 32) * 4096 + k, h)` of the batch. -/
theorem bblk_apply (c : Dev nD) (t : Fin cfg0.N) (k : Fin 4096) (h : Fin 512) :
    (iblk m c 1 t : Vec Ideal S4096x512 .bf16) (ix2 k h) = m ((c : Thread nD τ).loc main_arg0) (ix2 (row t.val k) h) := by
  unfold iblk
  rw [View.read_apply]
  show V m c main_call0_v1 (((cfg0.win 1).blk t).view.emb (ix2 k h)) = _
  refine (congrFun (V_bat m c) _).trans ?_
  refine congrArg (m ((c : Thread nD τ).loc main_arg0)) ?_
  obtain ⟨e0, e1⟩ := idx1 t
  funext a; apply Fin.ext
  match a with
  | ⟨0, _⟩ => show win0_1.index t (0 : Fin 2) * 4096 + 1 * k.val = t.val % 32 * 4096 + k.val; rw [e0]; omega
  | ⟨1, _⟩ => show win0_1.index t (1 : Fin 2) * 512 + 1 * h.val = h.val; rw [e1]; omega

/-- The class-sums window's block index at point `t`: class tile `t / 32`, all columns. -/
theorem idx2 : ∀ t : Fin cfg0.N, win0_2.index t (0 : Fin 2) = t.val / 32 ∧ win0_2.index t (1 : Fin 2) = 0 :=
  (by decide +kernel : ∀ t : Fin grid0.N, win0_2.index t (0 : Fin 2) = t.val / 32 ∧ win0_2.index t (1 : Fin 2) = 0)

/-- Entry `(p, h)` of the class-sums block at point `t` is entry `((t / 32) * 1024 + p, h)` of the class sums. -/
theorem cblk_apply (c : Dev nD) (t : Fin cfg0.N) (p : Fin 1024) (h : Fin 512) (r : Fin 8192) (hr : r.val = t.val / 32 * 1024 + p.val) :
    (iblk m c 2 t : Vec Ideal S1024x512 .f32) (ix2 p h) = m ((c : Thread nD τ).loc main_arg1) (ix2 r h) := by
  unfold iblk
  rw [View.read_apply]
  show V m c main_arg1 (((cfg0.win 2).blk t).view.emb (ix2 p h)) = _
  rw [V_main_arg1]
  refine congrArg (m ((c : Thread nD τ).loc main_arg1)) ?_
  obtain ⟨e0, e1⟩ := idx2 t
  funext a; apply Fin.ext
  match a with
  | ⟨0, _⟩ => show win0_2.index t (0 : Fin 2) * 1024 + 1 * p.val = r.val; rw [e0]; omega
  | ⟨1, _⟩ => show win0_2.index t (1 : Fin 2) * 512 + 1 * h.val = h.val; rw [e1]; omega

end Cert.KernelIdeal.Blocks
end
-- ==== Proof.KernelValue.lean ====
/-
  The kernel's result array is the segment sum `G`.

  At grid point `t` (class tile `t / 32`, batch tile `t % 32`) the body updates the accumulator by that tile's
  weighted sum `tileSum … t`; at the first batch tile of a class tile the accumulator starts from zero. So after
  the last batch tile the accumulator holds zero plus the 32 tile sums, and the output block written back there is
  the class sums' block plus that: by `G_tile`, block `t / 32` of `G`. The eight blocks written back tile the array.
-/
import proofs.«404510_j54958401519770_3_alg».proof.Proof.Gen.KernelIdeal.Value
import proofs.«404510_j54958401519770_3_alg».proof.Proof.Spec
import proofs.«404510_j54958401519770_3_alg».proof.Proof.KernelPieces
import proofs.«404510_j54958401519770_3_alg».proof.Proof.KernelPayload
import proofs.«404510_j54958401519770_3_alg».proof.Proof.KernelBlocks
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Value Cert.SegSum

variable (m : (ℓ : Loc nD τ sig) → Buf (Elt Ideal) ℓ) (ρ : Dev nD → PrngReg)

/-- The three argument arrays the result depends on, as functions on their literal index types. -/
abbrev bat (c : Dev nD) : Sbatch.Idx → EReal := m ((c : Thread nD τ).loc main_arg0)
abbrev cls (c : Dev nD) : Scls.Idx → EReal := m ((c : Thread nD τ).loc main_arg1)
abbrev tgt (c : Dev nD) : Stgt.Idx → BitVec 32 := m ((c : Thread nD τ).loc main_arg2)

/-- Grid point `t`'s first coordinate is its class tile `t / 32`. -/
theorem coords_fact : ∀ t : Fin cfg0.N, (grid0.coords t 0).val = t.val / 32 :=
  (by decide +kernel : ∀ t : Fin grid0.N, (grid0.coords t 0).val = t.val / 32)

/-- The update at point `t` of accumulator contents `acc`: `acc` plus the point's tile sum, entry by entry. -/
theorem update_apply (c : Dev nD) (t : Fin cfg0.N) (acc : Vec Ideal S1024x512 .f32) (y : S1024x512.Idx) :
    k0_pay2 (F := Ideal) (grid0.coords t) (iblk m c 0 t) (iblk m c 1 t) acc y
      = acc y + tileSum (bat m c) (tgt m c) t.val y := by
  obtain ⟨p, h, rfl⟩ : ∃ (p : Fin 1024) (h : Fin 512), y = ix2 p h := ⟨y 0, y 1, eq_ix2 y⟩
  refine (Payload.pay2_apply (grid0.coords t) (iblk m c 0 t) (iblk m c 1 t) acc p h).trans ?_
  refine congrArg (fun z => acc (ix2 p h) + z) ?_
  unfold tileSum
  refine Finset.sum_congr rfl fun k _ => ?_
  rw [Blocks.tblk_apply m c t k, Blocks.bblk_apply m c t k h, coords_fact t]

/-- At the first batch tile of a class tile the accumulator ends at zero plus the tile sum, whatever it held. -/
theorem scAt_reset (c : Dev nD) (n : ℕ) (hb : n < cfg0.N) (h0 : n % 32 = 0) (acc : Vec Ideal S1024x512 .f32)
    (y : S1024x512.Idx) :
    scAt0_0 m c n hb acc y = 0 + tileSum (bat m c) (tgt m c) n y := by
  have h1 : ¬ n % 32 = 31 := by omega
  unfold scAt0_0
  rw [dif_pos h0, dif_neg h1, Pieces.scratch_A]
  refine (update_apply m c ⟨n, hb⟩ (k0_pay1 (F := Ideal)) y).trans ?_
  rw [Payload.pay1_apply]

/-- At every other batch tile it ends at what it held plus the tile sum. -/
theorem scAt_step (c : Dev nD) (n : ℕ) (hb : n < cfg0.N) (h0 : ¬ n % 32 = 0) (acc : Vec Ideal S1024x512 .f32)
    (y : S1024x512.Idx) :
    scAt0_0 m c n hb acc y = acc y + tileSum (bat m c) (tgt m c) n y := by
  unfold scAt0_0
  by_cases h1 : n % 32 = 31
  · rw [dif_neg h0, dif_pos h1, Pieces.scratch_C]
    exact update_apply m c ⟨n, hb⟩ acc y
  · rw [dif_neg h0, dif_neg h1, Pieces.scratch_B]
    exact update_apply m c ⟨n, hb⟩ acc y

/-- The accumulator after point `t`: zero plus the tile sums of its class tile's batch tiles up to `t`. -/
theorem scratch_fold (c : Dev nD) (t : Fin cfg0.N) (y : S1024x512.Idx) :
    (outsAt0 m c t.val t.isLt).2 y
      = 0 + ∑ s ∈ Finset.range (t.val % 32 + 1), tileSum (bat m c) (tgt m c) (32 * (t.val / 32) + s) y := by
  rw [soutsAt0_0_eq m c t]
  exact Pipeline.accAt_add_apply _ _ (fun _ => (0 : EReal)) (fun n y => tileSum (bat m c) (tgt m c) n y)
    (32 * (t.val / 32)) 31
    (fun h i => scAt_reset m c _ h (by omega) _ i)
    (fun n h acc i hlt hle => scAt_step m c n h (by omega) acc i)
    (t.val % 32) (by omega) _ y

/-- At the last batch tile of a class tile the output block is the class sums' block plus the accumulator. -/
theorem out_last (c : Dev nD) (t : Fin cfg0.N) (h31 : t.val % 32 = 31) :
    (outsAt0 m c t.val t.isLt).1 = k0_pay3 (F := Ideal) (iblk m c 2 t) (outsAt0 m c t.val t.isLt).2 := by
  have h0 : ¬ t.val % 32 = 0 := by omega
  rw [outsAt0_C m c t h0 h31]
  dsimp only
  rw [Pieces.out_C, Pieces.scratch_C]

/-- The output window's block index at point `t`: class tile `t / 32`, all columns. -/
theorem idx3 : ∀ t : Fin cfg0.N, win0_3.index t (0 : Fin 2) = t.val / 32 ∧ win0_3.index t (1 : Fin 2) = 0 :=
  (by decide +kernel : ∀ t : Fin grid0.N, win0_3.index t (0 : Fin 2) = t.val / 32 ∧ win0_3.index t (1 : Fin 2) = 0)

/-- What the last batch tile of class tile `t / 32` writes back is that block of `G`. -/
theorem flushed_eq (c : Dev nD) (t : Fin cfg0.N) (hf : (cfg0.win 3).flush t = true) :
    (dats m 0 c).flushed 3 t = ((cfg0.win 3).blk t).view.read (Elt Ideal) (G (bat m c) (cls m c) (tgt m c)) := by
  have h31 : t.val % 32 = 31 := (flush0_3 t).mp hf
  have hN : t.val < 256 := lt_of_lt_of_eq t.isLt (show cfg0.N = 256 from N_0)
  rw [flushed3]
  funext y
  rw [View.read_apply]
  obtain ⟨p, h, rfl⟩ : ∃ (p : Fin 1024) (h : Fin 512), y = ix2 p h := ⟨y 0, y 1, eq_ix2 y⟩
  have hr : t.val / 32 * 1024 + p.val < 8192 := by have := p.isLt; omega
  have hemb : ((cfg0.win 3).blk t).view.emb (ix2 p h) = (ix2 (⟨t.val / 32 * 1024 + p.val, hr⟩ : Fin 8192) h : S8192x512.Idx) := by
    obtain ⟨e0, e1⟩ := idx3 t
    funext a; apply Fin.ext
    match a with
    | ⟨0, _⟩ => show win0_3.index t (0 : Fin 2) * 1024 + 1 * p.val = t.val / 32 * 1024 + p.val; rw [e0]; omega
    | ⟨1, _⟩ => show win0_3.index t (1 : Fin 2) * 512 + 1 * h.val = h.val; rw [e1]; omega
  show (outsAt0 m c t.val t.isLt).1 (ix2 p h) = G (bat m c) (cls m c) (tgt m c) (((cfg0.win 3).blk t).view.emb (ix2 p h))
  rw [hemb, out_last m c t h31]
  refine (Payload.pay3_apply _ _ (ix2 p h)).trans ?_
  rw [Blocks.cblk_apply m c t p h ⟨t.val / 32 * 1024 + p.val, hr⟩ rfl, scratch_fold m c t (ix2 p h), h31]
  exact G_tile (bat m c) (cls m c) (tgt m c) (t.val / 32) p h ⟨t.val / 32 * 1024 + p.val, hr⟩ rfl

/-- An index of the result array is in point `t`'s block iff each coordinate is in the block's range on its axis. -/
theorem mem_blk (t : Fin cfg0.N) (i : S8192x512.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v0).slice (win0_3.rect t)).set ↔ _
  rw [View.set_slice_whole, Rect.mem_set_unit]
  exact Iff.rfl

/-- Every row of the result lies in the block its class tile's last batch tile writes back. -/
theorem cover (i : S8192x512.Idx) :
    ∃ t : Fin cfg0.N, (cfg0.win 3).flush t = true ∧ i ∈ ((cfg0.win 3).blk t).view.set := by
  have hi0 : (i 0).val < 8192 := (i 0).isLt
  have hi1 : (i 1).val < 512 := (i 1).isLt
  have hN : cfg0.N = 256 := N_0
  have ht : 32 * ((i 0).val / 1024) + 31 < cfg0.N := by omega
  refine ⟨⟨32 * ((i 0).val / 1024) + 31, ht⟩, (flush0_3 _).mpr (by show (32 * ((i 0).val / 1024) + 31) % 32 = 31; omega), ?_⟩
  rw [mem_blk]
  obtain ⟨e0, e1⟩ := idx3 ⟨32 * ((i 0).val / 1024) + 31, ht⟩
  intro a
  match a with
  | ⟨0, _⟩ =>
    show win0_3.index ⟨32 * ((i 0).val / 1024) + 31, ht⟩ (0 : Fin 2) * 1024 ≤ (i 0).val
      ∧ (i 0).val < win0_3.index ⟨32 * ((i 0).val / 1024) + 31, ht⟩ (0 : Fin 2) * 1024 + 1024
    rw [e0]
    show (32 * ((i 0).val / 1024) + 31) / 32 * 1024 ≤ (i 0).val ∧ (i 0).val < (32 * ((i 0).val / 1024) + 31) / 32 * 1024 + 1024
    omega
  | ⟨1, _⟩ =>
    show win0_3.index ⟨32 * ((i 0).val / 1024) + 31, ht⟩ (1 : Fin 2) * 512 ≤ (i 1).val
      ∧ (i 1).val < win0_3.index ⟨32 * ((i 0).val / 1024) + 31, ht⟩ (1 : Fin 2) * 512 + 512
    rw [e1]
    omega

/-- So the result array ends holding `G` of the three argument arrays. -/
theorem final (c : Dev nD) : (dats m 0 c).arrAt 3 cfg0.N = G (bat m c) (cls m c) (tgt m c) :=
  (dats m 0 c).arrAt_eq_of_cover 3 (G (bat m c) (cls m c) (tgt m c)) (flushed_eq m c) cover

/-- The run, read: the result array at `G`, the arguments unchanged. -/
theorem run : θ_run defs (onTc (τ := τ) (main (F := Ideal))) ⟨m, fun _ => 0, ρ⟩ fun r => ∀ c : Dev nD,
      r.2.mem ((c : Thread nD τ).loc main_v0) = G (bat m c) (cls m c) (tgt m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.KValue

end
-- ==== Proof.LibScatterRows.lean ====
/-
  A ROW SCATTER-ADD read at an entry, over the extended reals.

  The operand is an `R × C` matrix, the scatter indices an `N × 1` column of words (one row index per update
  row, read signed and not clamped) and the updates an `N × C` matrix: update row `b` is added, entry by
  entry, to operand row `idx[b]` when that lies in `[0, R)`, and is dropped otherwise. At entry `(r, h)` the
  exact result is therefore the operand's entry plus the sum of `upd[b, h]` over the rows `b` whose index word,
  read signed, is `r`. A dropped row has an index that is no `r`, so it enters no entry's sum.
-/
import Idealize.ShloMosaic.PureOps.Ideal
import Idealize.ShloMosaic.Lib.ValueIdx

noncomputable section

open scoped BigOperators

namespace Idealize.ShloMosaic.ScatterRows

open Idealize.ShloMosaic Idealize.ShloMosaic.ValueIdx

/-- The dimension numbers of a row scatter: the updates' axis 1 is the window, operand axis 0 is inserted and is
    the one the indices address, the index vector is the indices' axis 1. -/
abbrev rowDims (R C N : ℕ)
    (wf : ScatterDims.WF (⟨2, ![R, C]⟩ : Shape) (⟨2, ![N, 1]⟩ : Shape) (⟨2, ![N, C]⟩ : Shape) [1] [0] [0] 1) :
    ScatterDims (⟨2, ![R, C]⟩ : Shape) (⟨2, ![N, 1]⟩ : Shape) (⟨2, ![N, C]⟩ : Shape) where
  updateWindowDims := [1]
  insertedWindowDims := [0]
  scatterDimsToOperandDims := [0]
  indexVectorDim := 1
  wf := wf

/-! ### The literal record, field by field

The operand's kept axes are `[1]`; the scatter-indices index an update index reads is its row with a `0` on the
index vector's axis; so the window starts at the signed index word on axis 0 and at `0` on axis 1, and the window
coordinate is `0` on axis 0 and the update's column on axis 1. -/

section Fields

variable {R C N w : ℕ}
  (wf : ScatterDims.WF (⟨2, ![R, C]⟩ : Shape) (⟨2, ![N, 1]⟩ : Shape) (⟨2, ![N, C]⟩ : Shape) [1] [0] [0] 1)

/-- The operand's axes that are not inserted: axis 1 alone. -/
theorem sKept_rows : (rowDims R C N wf).sKept = ([1] : List (Fin 2)) := by
  show (List.finRange 2).filter (fun a : Fin 2 => decide (a ∉ ([0] : List (Fin 2)))) = [1]
  decide

/-- Update index `j` reads its start index at row `j 0` of the index column. -/
theorem siIdx_rows (j : (⟨2, ![N, C]⟩ : Shape).Idx) (c : Fin (rowDims R C N wf).scatterDimsToOperandDims.length) :
    (rowDims R C N wf).siIdx j c = ix2 (j 0) (0 : Fin 1) := by
  funext a
  match a with
  | ⟨0, _⟩ =>
    unfold ScatterDims.siIdx
    rw [dif_neg (show ¬ (0 : ℕ) = 1 by decide)]
    apply Fin.ext
    rfl
  | ⟨1, _⟩ =>
    unfold ScatterDims.siIdx
    rw [dif_pos (show (1 : ℕ) = 1 from rfl)]
    apply Fin.ext
    have hc : c.val < 1 := c.isLt
    show c.val = 0
    omega

/-- On axis 0 the window starts at the index word of the update's row, read signed. -/
theorem start_zero (j : (⟨2, ![N, C]⟩ : Shape).Idx) (idx : IVec (⟨2, ![N, 1]⟩ : Shape) w) :
    (rowDims R C N wf).start j idx (0 : Fin 2) = (idx (ix2 (j 0) (0 : Fin 1))).toInt := by
  unfold ScatterDims.start
  rw [dif_pos (show (0 : Fin 2) ∈ ([0] : List (Fin 2)) by decide)]
  rw [siIdx_rows]
  rfl

/-- On axis 1, which the indices do not address, the window starts at `0`. -/
theorem start_one (j : (⟨2, ![N, C]⟩ : Shape).Idx) (idx : IVec (⟨2, ![N, 1]⟩ : Shape) w) :
    (rowDims R C N wf).start j idx (1 : Fin 2) = 0 := by
  unfold ScatterDims.start
  rw [dif_neg (show ¬ (1 : Fin 2) ∈ ([0] : List (Fin 2)) by decide)]

/-- Axis 0 is inserted: its window coordinate is `0`. -/
theorem window_zero (j : (⟨2, ![N, C]⟩ : Shape).Idx) :
    (rowDims R C N wf).window j (0 : Fin 2) = 0 := by
  unfold ScatterDims.window
  rw [dif_neg (by rw [sKept_rows]; show ¬ (0 : Fin 2) ∈ ([1] : List (Fin 2)); decide)]

/-- Axis 1 carries the update's column. -/
theorem window_one (j : (⟨2, ![N, C]⟩ : Shape).Idx) :
    (rowDims R C N wf).window j (1 : Fin 2) = (j 1).val := by
  unfold ScatterDims.window
  rw [dif_pos (by rw [sKept_rows]; show (1 : Fin 2) ∈ ([1] : List (Fin 2)); decide)]
  rfl

end Fields

/-- Update entry `(b, f)` lands on operand entry `(r, h)` exactly when the index word of row `b`, read signed, is
    `r` and the columns agree. -/
theorem resultIdx?_rows {R C N w : ℕ}
    (wf : ScatterDims.WF (⟨2, ![R, C]⟩ : Shape) (⟨2, ![N, 1]⟩ : Shape) (⟨2, ![N, C]⟩ : Shape) [1] [0] [0] 1)
    (idx : IVec (⟨2, ![N, 1]⟩ : Shape) w) (b : Fin N) (f : Fin C) (r : Fin R) (h : Fin C) :
    (rowDims R C N wf).resultIdx? (ix2 b f) idx = some (ix2 r h)
      ↔ (idx (ix2 b (0 : Fin 1))).toInt = (r.val : ℤ) ∧ f = h := by
  have s0 : (rowDims R C N wf).start (ix2 b f) idx (0 : Fin 2) = (idx (ix2 b (0 : Fin 1))).toInt :=
    start_zero wf (ix2 b f) idx
  have s1 := start_one wf (ix2 b f) idx
  have w0 := window_zero wf (ix2 b f)
  have w1 : (rowDims R C N wf).window (ix2 b f) (1 : Fin 2) = f.val := window_one wf (ix2 b f)
  have hr : r.val < R := r.isLt
  have hh : h.val < C := h.isLt
  have hf : f.val < C := f.isLt
  unfold ScatterDims.resultIdx?
  constructor
  · -- an update that lands at `(r, h)` is inside the operand; read the landing index axis by axis
    intro hres
    split at hres
    · rename_i hb
      have e := Option.some.inj hres
      have e0 : ((rowDims R C N wf).start (ix2 b f) idx (0 : Fin 2)
          + ((rowDims R C N wf).window (ix2 b f) (0 : Fin 2) : ℤ)).toNat = r.val :=
        congrArg (fun i : (⟨2, ![R, C]⟩ : Shape).Idx => (i 0).val) e
      have e1 : ((rowDims R C N wf).start (ix2 b f) idx (1 : Fin 2)
          + ((rowDims R C N wf).window (ix2 b f) (1 : Fin 2) : ℤ)).toNat = h.val :=
        congrArg (fun i : (⟨2, ![R, C]⟩ : Shape).Idx => (i 1).val) e
      have h0 : 0 ≤ (rowDims R C N wf).start (ix2 b f) idx (0 : Fin 2)
          + ((rowDims R C N wf).window (ix2 b f) (0 : Fin 2) : ℤ) := (hb 0).1
      rw [s0, w0] at e0 h0
      rw [s1, w1] at e1
      refine ⟨by omega, Fin.ext (by omega)⟩
    · exact absurd hres (by simp)
  · -- conversely the index word `r` and the column `f` are inside the operand, and land at `(r, f)`
    rintro ⟨hi, rfl⟩
    have H : ∀ a : Fin 2, 0 ≤ (rowDims R C N wf).start (ix2 b f) idx a + ((rowDims R C N wf).window (ix2 b f) a : ℤ)
        ∧ (rowDims R C N wf).start (ix2 b f) idx a + ((rowDims R C N wf).window (ix2 b f) a : ℤ)
          < ((⟨2, ![R, C]⟩ : Shape).size a : ℤ) := by
      refine Fin.forall_fin_two.2 ⟨?_, ?_⟩
      · rw [s0, w0, hi]
        show 0 ≤ (r.val : ℤ) + ((0 : ℕ) : ℤ) ∧ (r.val : ℤ) + ((0 : ℕ) : ℤ) < (R : ℤ)
        omega
      · rw [s1, w1]
        show 0 ≤ (0 : ℤ) + (f.val : ℤ) ∧ (0 : ℤ) + (f.val : ℤ) < (C : ℤ)
        omega
    rw [dif_pos H]
    refine congrArg some (funext fun a => ?_)
    match a with
    | ⟨0, _⟩ =>
      apply Fin.ext
      show ((rowDims R C N wf).start (ix2 b f) idx (0 : Fin 2)
          + ((rowDims R C N wf).window (ix2 b f) (0 : Fin 2) : ℤ)).toNat = r.val
      rw [s0, w0, hi]
      omega
    | ⟨1, _⟩ =>
      apply Fin.ext
      show ((rowDims R C N wf).start (ix2 b f) idx (1 : Fin 2)
          + ((rowDims R C N wf).window (ix2 b f) (1 : Fin 2) : ℤ)).toNat = f.val
      rw [s1, w1]
      omega

/-- The exact row scatter-add at entry `(r, h)`. -/
theorem hostScatterAdd_rows {R C N w : ℕ}
    (wf : ScatterDims.WF (⟨2, ![R, C]⟩ : Shape) (⟨2, ![N, 1]⟩ : Shape) (⟨2, ![N, C]⟩ : Shape) [1] [0] [0] 1)
    (x : (⟨2, ![R, C]⟩ : Shape).Idx → EReal) (idx : IVec (⟨2, ![N, 1]⟩ : Shape) w)
    (upd : (⟨2, ![N, C]⟩ : Shape).Idx → EReal) (r : Fin R) (h : Fin C) :
    Ideal.hostScatterAdd (rowDims R C N wf) x idx upd (ix2 r h)
      = x (ix2 r h) + ∑ b : Fin N, if (idx (ix2 b (0 : Fin 1))).toInt = (r.val : ℤ) then upd (ix2 b h) else 0 := by
  unfold Ideal.hostScatterAdd
  refine congrArg (x (ix2 r h) + ·) ?_
  -- the filtered sum over update entries, as a double sum over update rows and columns
  rw [Finset.sum_filter, sum_idx2]
  refine Finset.sum_congr rfl (fun b _ => ?_)
  by_cases hi : (idx (ix2 b (0 : Fin 1))).toInt = (r.val : ℤ)
  · -- row `b` addresses `r`: of its columns exactly `h` lands at `(r, h)`
    rw [if_pos hi]
    have e : ∀ f : Fin C, (if (rowDims R C N wf).resultIdx? (ix2 b f) idx = some (ix2 r h) then upd (ix2 b f) else 0)
        = if f = h then upd (ix2 b f) else 0 := by
      intro f
      refine if_congr ?_ rfl rfl
      rw [resultIdx?_rows wf idx b f r h]
      exact ⟨fun p => p.2, fun p => ⟨hi, p⟩⟩
    rw [Finset.sum_congr rfl (fun f _ => e f), Finset.sum_ite_eq' Finset.univ h (fun f => upd (ix2 b f)),
      if_pos (Finset.mem_univ h)]
  · -- row `b` addresses another row, or none: nothing of it lands at `(r, h)`
    rw [if_neg hi]
    refine Finset.sum_eq_zero (fun f _ => ?_)
    rw [if_neg]
    rw [resultIdx?_rows wf idx b f r h]
    exact fun p => hi p.1

end Idealize.ShloMosaic.ScatterRows

end
-- ==== Proof.RefValue.lean ====
/-
  The reference's result is the segment sum `G`.

  The reference scatter-adds the batch rows into a zero matrix at the rows their targets name, and adds the
  class sums. Entry by entry this is the class sums' entry plus (zero plus) the sum of the batch entries of the
  rows whose target is that class: the weighted sum of `G`, the weight of a row being 1 or 0.
-/
import proofs.«404510_j54958401519770_3_alg».proof.Proof.Gen.ReferenceIdeal.Read
import proofs.«404510_j54958401519770_3_alg».proof.Proof.Spec
import proofs.«404510_j54958401519770_3_alg».proof.Proof.LibScatterRows
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

theorem ref_eq (x0 : FVec Ideal S131072x512 .f32) (x1 : FVec Ideal S8192x512 .f32) (x2 : IVec S131072 32) :
    Cert.ReferenceIdeal.Read.val_main_v3 (F := Ideal) x0 x1 x2 = Cert.SegSum.G x0 x1 x2 := by
  funext i
  obtain ⟨r, h, rfl⟩ : ∃ r h, i = ix2 r h := ⟨i 0, i 1, eq_ix2 i⟩
  rw [Read.val_main_v3_apply]
  unfold Read.val_main_v2
  -- the scatter stage at the entry: the zero matrix's entry plus the batch entries of the rows addressing `r`
  have hs : Host.scatterAdd scatter_S8192x512_S131072x1_S131072x512_1_0_0_1 (Read.val_main_v0 (F := Ideal))
        (Read.val_main_v1 (F := Ideal) x2) x0 (ix2 r h)
      = Read.val_main_v0 (F := Ideal) (ix2 r h)
        + ∑ b : Fin 131072, if (Read.val_main_v1 (F := Ideal) x2 (ix2 b (0 : Fin 1))).toInt = (r.val : ℤ)
            then x0 (ix2 b h) else 0 :=
    ScatterRows.hostScatterAdd_rows _ _ _ _ r h
  rw [hs, Read.val_main_v0_apply, Read.val_main_cst_apply]
  show x1 (ix2 r h) + (Ideal.ofBits .f32 0x00000000#32 + _) = _
  rw [Ideal.ofBits_zero_f32, zero_add]
  unfold Cert.SegSum.G
  refine congrArg (x1 (ix2 r h) + ·) ?_
  refine Finset.sum_congr rfl (fun b _ => ?_)
  -- the index column's entry of row `b` is the target of row `b`
  have hv : Read.val_main_v1 (F := Ideal) x2 (ix2 b (0 : Fin 1)) = x2 (ix1 b) := by
    rw [Read.val_main_v1_apply]
    refine congrArg x2 (funext fun a => ?_)
    match a with
    | ⟨0, _⟩ => rfl
  rw [hv]
  show _ = Cert.SegSum.hot (x2 (ix1 b)) r.val * x0 (ix2 b h)
  unfold Cert.SegSum.hot
  split
  · rw [one_mul]
  · rw [zero_mul]

end Cert.ReferenceIdeal.RefValue

end
-- ==== Proof.lean ====
/-
  The kernel computes the segment sum of its reference, over the extended reals.

  The reference adds to the class sums, row by row, the batch rows whose target names that row (a scatter-add
  into a zero matrix, rows with a target outside `[0, 8192)` dropped). The kernel never scatters: for each tile
  of 1024 classes it walks the 32 tiles of 4096 batch rows, multiplies a one-hot block (entry 1 where the row's
  target is the class, else 0) with the batch block and accumulates the products; after the last batch tile it adds
  the class sums' block and writes the tile back. A target outside the range equals no class, so its row is
  multiplied by zero everywhere: dropped, as in the reference.

  Both results are one function `G` of the three argument arrays (Proof/Spec.lean): entry `(r, h)` is the class sums'
  entry plus the sum over ALL batch rows `b` of weight(b, r) times `batch[b, h]`. For the reference the weights
  select the rows the scatter lands on row `r` (Proof/RefValue.lean over Proof/LibScatterRows.lean); for the kernel
  the accumulated products are that sum cut into 32 consecutive tiles (Proof/KernelValue.lean). Only commutativity
  and associativity of the sum and `0 * z = 0`, `1 * z = z` are used, which hold at the infinities too: the
  precondition that the inputs are finite is never opened. The ideal pass rewrote nothing, so `preserves` is trivial.
-/
import proofs.«404510_j54958401519770_3_alg».proof.Defs
import proofs.«404510_j54958401519770_3_alg».proof.Proof.Gen.Kernel
import proofs.«404510_j54958401519770_3_alg».proof.Proof.Gen.Kernel.Skeleton
import proofs.«404510_j54958401519770_3_alg».proof.Proof.Gen.Kernel.Launch
import proofs.«404510_j54958401519770_3_alg».proof.Proof.Gen.Kernel.Points
import proofs.«404510_j54958401519770_3_alg».proof.Proof.Gen.Kernel.Frame
import proofs.«404510_j54958401519770_3_alg».proof.Proof.Gen.KernelIdeal
import proofs.«404510_j54958401519770_3_alg».proof.Proof.Gen.KernelIdeal.Skeleton
import proofs.«404510_j54958401519770_3_alg».proof.Proof.Gen.KernelIdeal.Launch
import proofs.«404510_j54958401519770_3_alg».proof.Proof.Gen.KernelIdeal.Points
import proofs.«404510_j54958401519770_3_alg».proof.Proof.Gen.KernelIdeal.Frame
import proofs.«404510_j54958401519770_3_alg».proof.Proof.Gen.ReferenceIdeal
import proofs.«404510_j54958401519770_3_alg».proof.Proof.Gen.Pre_finite_inputs
import proofs.«404510_j54958401519770_3_alg».proof.Proof.Gen.KernelIdeal.Value
import proofs.«404510_j54958401519770_3_alg».proof.Proof.Gen.ReferenceIdeal.Run
import proofs.«404510_j54958401519770_3_alg».proof.Proof.Gen.ReferenceIdeal.Read
import proofs.«404510_j54958401519770_3_alg».proof.Proof.KernelValue
import proofs.«404510_j54958401519770_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs, and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is straight-line host code: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result array at `G` of the arguments. -/
theorem algebraic : Cert.algebraic_KernelIdeal_ReferenceIdeal := by
  intro m ρ m' ρ' _ hagree
  refine ⟨fun c => Cert.SegSum.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.ref_eq,
    (hagree c).1, (hagree c).2.1, (hagree c).2.2.1]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
